-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : FVec F S4096 .f32) (main_arg3 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the kernel body leaves behind, as values of the blocks it was given: the carried
  accumulator after a first step of a reduction run (reset to zero, then one accumulation step), after a middle or
  last step (one accumulation step over what the step before left), and the output block after a last step (the
  accumulator just stored, plus the bias row).
-/
import proofs.«169294_j30313879175885_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-block access. -/
theorem hz : (![0, 0] : Fin 2 → Nat) = fun _ => 0 := funext fun a => by fin_cases a <;> rfl

/-- First step of a run: the accumulator is reset and then takes one accumulation step from the reset value. -/
theorem scratch_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg7.read_unread, View.ld_unit_zero (S := S1024x512) hz, View.ld_unit_zero (S := S1024x1024) hz, View.ld_unit_zero (S := S1x1024) hz]

/-- Middle step: one accumulation step over what the step before left. -/
theorem scratch_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz, View.ld_unit_zero (S := S1x1024) hz]

/-- Last step: the accumulator takes the same accumulation step. -/
theorem scratch_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz, View.ld_unit_zero (S := S1x1024) hz]

/-- Last step: the output block is the accumulator just stored plus the bias row, broadcast down the rows. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x512) hz, View.ld_unit_zero (S := S1024x1024) hz, View.ld_unit_zero (S := S1x1024) hz, View.readCov_unit_zero (S := S1024x1024) _ hz]

end Cert.KernelIdeal.Pieces

end
-- ==== Proof.Blocks.lean ====
/-
  Where the grid's points read and write. Point t of the 8 × 4 × 8 grid (row block t / 32, column block t / 8 mod 4,
  reduction step t mod 8) is handed rows 1024·(t/32) … of the left array and rows 1024·(t/8 mod 4) … of the right
  array, both at columns 512·(t mod 8) …, and columns 1024·(t/8 mod 4) … of the one-row bias array; the output block
  it may write back is rows 1024·(t/32) …, columns 1024·(t/8 mod 4) … of the result array.
-/
import proofs.«169294_j30313879175885_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The three arrays the region reads, as it finds them: the left operand [8192, 4096], the right operand
    [4096, 4096] and the one-row bias [1, 4096]. -/
abbrev xarr (c : Dev nD) : Vec F S8192x4096 .f32 := V m c main_v7
abbrev warr (c : Dev nD) : Vec F S4096x4096 .f32 := V m c main_v6
abbrev barr (c : Dev nD) : Vec F S1x4096 .f32 := V m c main_v8

/-- The blocks point `t` is handed. -/
abbrev xblk (c : Dev nD) (t : Fin cfg0.N) : Vec F S1024x512 .f32 := iblk m c 0 t
abbrev wblk (c : Dev nD) (t : Fin cfg0.N) : Vec F S1024x512 .f32 := iblk m c 1 t
abbrev bblk (c : Dev nD) (t : Fin cfg0.N) : Vec F S1x1024 .f32 := iblk m c 2 t

/-- The block indices of the four windows at point `t`, decided over the 256 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- Entry (p, k) of the left block at point `t` is entry (1024·(t/32) + p, 512·(t mod 8) + k) of the left array. -/
theorem xblk_apply (c : Dev nD) (t : Fin cfg0.N) (p : Fin 1024) (k : Fin 512) (r : Fin 8192) (kk : Fin 4096)
    (hr : r.val = 1024 * (t.val / 32) + p.val) (hk : kk.val = 512 * (t.val % 8) + k.val) :
    xblk m c t (ix2 p k) = xarr m c (ix2 r kk) := by
  obtain ⟨e0, e1, -⟩ := index_facts t
  show ((cfg0.win 0).blk t).view.read (Elt F) (V m c (Pipeline.arrRef spec0 0)) (ix2 p k) = _
  rw [View.read_apply]
  show V m c main_v7 _ = V m c main_v7 _
  congr 1
  funext a
  apply Fin.ext
  match a with
  | ⟨0, _⟩ => show win0_0.index t (0 : Fin 2) * 1024 + 1 * p.val = r.val; omega
  | ⟨1, _⟩ => show win0_0.index t (1 : Fin 2) * 512 + 1 * k.val = kk.val; omega

/-- Entry (q, k) of the right block at point `t` is entry (1024·(t/8 mod 4) + q, 512·(t mod 8) + k) of the right array. -/
theorem wblk_apply (c : Dev nD) (t : Fin cfg0.N) (q : Fin 1024) (k : Fin 512) (o : Fin 4096) (kk : Fin 4096)
    (ho : o.val = 1024 * (t.val / 8 % 4) + q.val) (hk : kk.val = 512 * (t.val % 8) + k.val) :
    wblk m c t (ix2 q k) = warr m c (ix2 o kk) := by
  obtain ⟨-, -, e0, e1, -⟩ := index_facts t
  show ((cfg0.win 1).blk t).view.read (Elt F) (V m c (Pipeline.arrRef spec0 1)) (ix2 q k) = _
  rw [View.read_apply]
  show V m c main_v6 _ = V m c main_v6 _
  congr 1
  funext a
  apply Fin.ext
  match a with
  | ⟨0, _⟩ => show win0_1.index t (0 : Fin 2) * 1024 + 1 * q.val = o.val; omega
  | ⟨1, _⟩ => show win0_1.index t (1 : Fin 2) * 512 + 1 * k.val = kk.val; omega

/-- Entry (0, q) of the bias block at point `t` is entry (0, 1024·(t/8 mod 4) + q) of the bias array. -/
theorem bblk_apply (c : Dev nD) (t : Fin cfg0.N) (q : Fin 1024) (o : Fin 4096)
    (ho : o.val = 1024 * (t.val / 8 % 4) + q.val) :
    bblk m c t (ix2 (0 : Fin 1) q) = barr m c (ix2 (0 : Fin 1) o) := by
  obtain ⟨-, -, -, -, e0, e1, -⟩ := index_facts t
  show ((cfg0.win 2).blk t).view.read (Elt F) (V m c (Pipeline.arrRef spec0 2)) (ix2 (0 : Fin 1) q) = _
  rw [View.read_apply]
  show V m c main_v8 _ = V m c main_v8 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = o.val; omega

end Cert.KernelIdeal.Blocks

end
-- ==== Proof.Payload.lean ====
/-
  The kernel body's three stored values, read at one entry (p, q) of the 1024 × 1024 block, on the extended reals:
  the reset value is 0; the accumulation step adds to the carried entry the 512-term product sum of row p of the
  left block with row q of the right block (the narrowing to bf16 is the identity here); the last step adds the
  bias row's entry q.
-/
import proofs.«169294_j30313879175885_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! The block product's operand indices: the left operand is read at (row of the output, contracted position), the
    right operand at (column of the output, contracted position): both operands are contracted along their axis 1. -/

theorem lhs_mm_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_mm_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_mm_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_mm_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into the zero block at entry (p, q): the sum over the 512 contracted positions of
    left[p, k] · right[q, k]. -/
theorem mm_apply (a b : FVec Ideal S1024x512 .bf16) (p q : Fin 1024) :
    matmul dot_S1024x512_S1024x512_S1024x1024_1_1_0_0_n_n none a b (constant S1024x1024 .f32 0x00000000#32) (ix2 p q)
      = ∑ k : Fin 512, a (ix2 p k) * b (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- The reset value is the zero block. -/
theorem pay1_apply (j : S1024x1024.Idx) : k0_pay1 (F := Ideal) j = 0 := by
  unfold k0_pay1
  rw [shapeCast_self]
  show Ideal.ofBits .f32 0x00000000#32 = 0
  exact Ideal.ofBits_zero_f32

/-- The accumulation step at entry (p, q). -/
theorem pay2_apply (v3 v6 : Vec Ideal S1024x512 .f32) (v9 : Vec Ideal S1024x1024 .f32) (p q : Fin 1024) :
    k0_pay2 (F := Ideal) v3 v6 v9 (ix2 p q) = v9 (ix2 p q) + ∑ k : Fin 512, v3 (ix2 p k) * v6 (ix2 q k) := by
  unfold k0_pay2
  rw [shapeCast_self, shapeCast_self, shapeCast_self, addf_apply, mm_apply]
  rfl

/-- The last step at entry (p, q): the carried entry plus the bias row's entry q. -/
theorem pay3_apply (v18 : Vec Ideal S1024x1024 .f32) (v19 : Vec Ideal S1x1024 .f32) (p q : Fin 1024) :
    k0_pay3 (F := Ideal) v18 v19 (ix2 p q) = v18 (ix2 p q) + v19 (ix2 (0 : Fin 1) q) := by
  unfold k0_pay3
  rw [shapeCast_self, addf_apply]
  refine congrArg (v18 (ix2 p q) + ·) ?_
  exact broadcastTo_apply v19 broadcasts_S1x1024_S1024x1024 (ix2 p q) (ix2 (0 : Fin 1) q) (fun a => by
    match a with
    | ⟨0, _⟩ => show 0 = if (1 : Nat) = 1 then 0 else _; rw [if_pos rfl]
    | ⟨1, _⟩ => show q.val = if (1024 : Nat) = 1 then 0 else q.val; rw [if_neg (by decide)])

end Cert.KernelIdeal.Payload

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Contraction.lean ====
/-
  The contraction of a row of an [8192, 4096] array against a row of a [4096, 4096] array, on the extended reals,
  taken 512 entries at a time: the sum of the first n blocks (`partialDot`), how one more block extends it, and that
  eight blocks are the whole sum over the 4096 contracted entries. Only associativity and commutativity of + are used,
  so nothing here needs the entries to be finite.
-/
import Idealize.ShloMosaic.Lib.ValueIdx
import proofs.«169294_j30313879175885_1_alg».proof.Proof.LibBlockSum

noncomputable section

namespace Cert.Contraction

open Idealize.ShloMosaic Idealize.ShloMosaic.ValueIdx Finset

variable (X : (⟨2, ![8192, 4096]⟩ : Shape).Idx → EReal) (W : (⟨2, ![4096, 4096]⟩ : Shape).Idx → EReal)
variable (r : Fin 8192) (o : Fin 4096)

/-- Entry `k` of the contraction of row `r` of `X` against row `o` of `W`, as a function on all naturals (zero past
    the contracted extent, which no sum below reaches). -/
def term (k : ℕ) : EReal :=
  if h : k < 4096 then X (ix2 r ⟨k, h⟩) * W (ix2 o ⟨k, h⟩) else 0

/-- The sum of the first `n` blocks of 512 entries. -/
def partialDot (n : ℕ) : EReal := ∑ s ∈ range n, ∑ l : Fin 512, term X W r o (512 * s + l.val)

theorem partialDot_zero : partialDot X W r o 0 = 0 := by
  unfold partialDot; rw [range_zero, sum_empty]

theorem partialDot_succ (n : ℕ) :
    partialDot X W r o (n + 1) = partialDot X W r o n + ∑ l : Fin 512, term X W r o (512 * n + l.val) := by
  unfold partialDot; rw [sum_range_succ]

/-- Inside the contracted extent an entry is the product of the two rows' entries. -/
theorem term_block (s : ℕ) (hs : s < 8) (l : Fin 512) :
    term X W r o (512 * s + l.val)
      = X (ix2 r ⟨512 * s + l.val, by have := l.isLt; omega⟩) * W (ix2 o ⟨512 * s + l.val, by have := l.isLt; omega⟩) := by
  unfold term
  rw [dif_pos]

/-- Eight blocks of 512 are the whole contraction. -/
theorem partialDot_eight : partialDot X W r o 8 = ∑ k : Fin 4096, X (ix2 r k) * W (ix2 o k) := by
  have h1 : ∑ k : Fin 4096, X (ix2 r k) * W (ix2 o k) = ∑ k : Fin 4096, term X W r o k.val :=
    Fintype.sum_congr _ _ fun k => by
      unfold term
      rw [dif_pos k.isLt]
  rw [h1, Fin.sum_univ_eq_sum_range (fun i => term X W r o i) 4096]
  have h2 := Cert.Lib.sum_range_blocks (term X W r o) 512 8
  rw [show 8 * 512 = 4096 from rfl] at h2
  rw [h2]
  unfold partialDot
  exact sum_congr rfl fun s _ => (Fin.sum_univ_eq_sum_range (fun l => term X W r o (512 * s + l)) 512)

end Cert.Contraction

end
-- ==== Proof.Step.lean ====
/-
  One accumulation step against the blocked contraction. If the left block's row p holds entries 512·s … of row r
  of the left array, the right block's row q the same entries of row o of the right array, and the carried entry
  (p, q) is the sum of the first s blocks of the contraction of those two rows, then the step leaves the sum of the
  first s + 1 blocks.
-/
import proofs.«169294_j30313879175885_1_alg».proof.Proof.Payload
import proofs.«169294_j30313879175885_1_alg».proof.Proof.Contraction

noncomputable section

namespace Cert.KernelIdeal.Step

open Cert.KernelIdeal Cert.KernelIdeal.Gen Idealize.ShloMosaic Idealize.ShloMosaic.ValueIdx Cert.Contraction

/-- The 512 products of one step are block `s` of the contraction. -/
theorem block_sum (x0 x1 : Vec Ideal S1024x512 .f32)
    (X : (⟨2, ![8192, 4096]⟩ : Shape).Idx → EReal) (W : (⟨2, ![4096, 4096]⟩ : Shape).Idx → EReal)
    (r : Fin 8192) (o : Fin 4096) (s : ℕ) (hs : s < 8) (p q : Fin 1024)
    (hx : ∀ (k : Fin 512) (kk : Fin 4096), kk.val = 512 * s + k.val → x0 (ix2 p k) = X (ix2 r kk))
    (hw : ∀ (k : Fin 512) (kk : Fin 4096), kk.val = 512 * s + k.val → x1 (ix2 q k) = W (ix2 o kk)) :
    ∑ k : Fin 512, x0 (ix2 p k) * x1 (ix2 q k) = ∑ l : Fin 512, term X W r o (512 * s + l.val) :=
  Finset.sum_congr rfl fun k _ => by
    rw [term_block X W r o s hs k]
    exact congrArg₂ (· * ·) (hx k ⟨512 * s + k.val, by have := k.isLt; omega⟩ rfl)
      (hw k ⟨512 * s + k.val, by have := k.isLt; omega⟩ rfl)

/-- A step over the first `s` blocks leaves the first `s + 1`. -/
theorem step_value (x0 x1 : Vec Ideal S1024x512 .f32) (acc : Vec Ideal S1024x1024 .f32)
    (X : (⟨2, ![8192, 4096]⟩ : Shape).Idx → EReal) (W : (⟨2, ![4096, 4096]⟩ : Shape).Idx → EReal)
    (r : Fin 8192) (o : Fin 4096) (s : ℕ) (hs : s < 8) (p q : Fin 1024)
    (hx : ∀ (k : Fin 512) (kk : Fin 4096), kk.val = 512 * s + k.val → x0 (ix2 p k) = X (ix2 r kk))
    (hw : ∀ (k : Fin 512) (kk : Fin 4096), kk.val = 512 * s + k.val → x1 (ix2 q k) = W (ix2 o kk))
    (hacc : acc (ix2 p q) = partialDot X W r o s) :
    k0_pay2 (F := Ideal) x0 x1 acc (ix2 p q) = partialDot X W r o (s + 1) := by
  rw [Payload.pay2_apply, hacc, partialDot_succ, block_sum x0 x1 X W r o s hs p q hx hw]

/-- The first step of a run starts from the reset value, which is zero: it leaves the first block. -/
theorem first_value (x0 x1 : Vec Ideal S1024x512 .f32)
    (X : (⟨2, ![8192, 4096]⟩ : Shape).Idx → EReal) (W : (⟨2, ![4096, 4096]⟩ : Shape).Idx → EReal)
    (r : Fin 8192) (o : Fin 4096) (p q : Fin 1024)
    (hx : ∀ (k : Fin 512) (kk : Fin 4096), kk.val = 512 * 0 + k.val → x0 (ix2 p k) = X (ix2 r kk))
    (hw : ∀ (k : Fin 512) (kk : Fin 4096), kk.val = 512 * 0 + k.val → x1 (ix2 q k) = W (ix2 o kk)) :
    k0_pay2 (F := Ideal) x0 x1 (k0_pay1 (F := Ideal)) (ix2 p q) = partialDot X W r o (0 + 1) :=
  step_value x0 x1 _ X W r o 0 (by decide) p q hx hw ((Payload.pay1_apply _).trans (partialDot_zero X W r o).symm)

end Cert.KernelIdeal.Step

end
-- ==== Proof.Accum.lean ====
/-
  The carried accumulator, point by point. After point t, entry (p, q) of the accumulator is the sum of the first
  (t mod 8) + 1 blocks of the contraction of row 1024·(t/32) + p of the left array against row 1024·(t/8 mod 4) + q of
  the right array: a first step of a run (t mod 8 = 0) leaves the first block, and every later step extends the sum
  the point before left by one block, the row and column blocks staying put within a run of eight points. At the
  last point of a run (t mod 8 = 7) the output block is the whole contraction plus the bias entry.
-/
import proofs.«169294_j30313879175885_1_alg».proof.Proof.Pieces
import proofs.«169294_j30313879175885_1_alg».proof.Proof.Blocks
import proofs.«169294_j30313879175885_1_alg».proof.Proof.Step

set_option maxRecDepth 16384

noncomputable section

namespace Cert.KernelIdeal.Accum

open Cert.KernelIdeal Cert.KernelIdeal.Gen Idealize.ShloMosaic Idealize.ShloMosaic.TcCoe Idealize.ShloMosaic.ValueIdx Idealize.SL.Sem
open Cert.Contraction Cert.KernelIdeal.Blocks

variable (m : (ℓ : Loc nD τ sig) → Buf (Elt Ideal) ℓ)

/-- The row of the left array and the row of the right array that entry (p, q) of point `n`'s blocks belongs to. -/
def rowOf (n : ℕ) (p : Fin 1024) : Fin 8192 := ⟨1024 * (n / 32 % 8) + p.val, by have := p.isLt; omega⟩
def colOf (n : ℕ) (q : Fin 1024) : Fin 4096 := ⟨1024 * (n / 8 % 4) + q.val, by have := q.isLt; omega⟩

theorem N256 : cfg0.N = 256 := N_0

/-- The left block's row p at point t holds entries 512·(t mod 8) … of its row of the left array. -/
theorem hx (c : Dev nD) (t : Fin cfg0.N) (p : Fin 1024) (s : ℕ) (hs : s = t.val % 8) :
    ∀ (k : Fin 512) (kk : Fin 4096), kk.val = 512 * s + k.val →
      xblk m c t (ix2 p k) = xarr m c (ix2 (rowOf t.val p) kk) := fun k kk hkk =>
  xblk_apply m c t p k (rowOf t.val p) kk (by have : t.val < 256 := lt_of_lt_of_eq t.isLt N256; show 1024 * (t.val / 32 % 8) + p.val = _; omega) (by omega)

/-- The right block's row q at point t holds the same entries of its row of the right array. -/
theorem hw (c : Dev nD) (t : Fin cfg0.N) (q : Fin 1024) (s : ℕ) (hs : s = t.val % 8) :
    ∀ (k : Fin 512) (kk : Fin 4096), kk.val = 512 * s + k.val →
      wblk m c t (ix2 q k) = warr m c (ix2 (colOf t.val q) kk) := fun k kk hkk =>
  wblk_apply m c t q k (colOf t.val q) kk rfl (by omega)

/-- THE INVARIANT: the accumulator after point n. -/
theorem scratch_eq (c : Dev nD) : ∀ (n : ℕ) (h : n < cfg0.N) (p q : Fin 1024),
    (outsAt0 m c n h).2 (ix2 p q) = partialDot (xarr m c) (warr m c) (rowOf n p) (colOf n q) (n % 8 + 1)
  | 0, h, p, q => by
    let t : Fin cfg0.N := ⟨0, h⟩
    have h0 : t.val % 8 = 0 := rfl
    have h1 : ¬t.val % 8 = 7 := fun h => by have : (0 : ℕ) % 8 = 7 := h; omega
    show (outsAt0 m c t.val t.isLt).2 (ix2 p q) = _
    rw [outsAt0_A m c t h0 h1]
    dsimp only
    refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
    exact Step.first_value (xblk m c t) (wblk m c t) (xarr m c) (warr m c) (rowOf 0 p) (colOf 0 q) p q
      (hx m c t p 0 rfl) (hw m c t q 0 rfl)
  | n + 1, h, p, q => by
    have ih := scratch_eq c n (Nat.lt_of_succ_lt h) p q
    have hN : n + 1 < 256 := lt_of_lt_of_eq h N256
    let t : Fin cfg0.N := ⟨n + 1, h⟩
    show (outsAt0 m c t.val t.isLt).2 (ix2 p q) = _
    by_cases h0 : t.val % 8 = 0
    · have h1 : ¬t.val % 8 = 7 := by omega
      rw [outsAt0_A m c t h0 h1]
      dsimp only
      refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
      have e : (n + 1) % 8 + 1 = 0 + 1 := by have : (n + 1) % 8 = 0 := h0; omega
      rw [e]
      exact Step.first_value (xblk m c t) (wblk m c t) (xarr m c) (warr m c) (rowOf (n + 1) p) (colOf (n + 1) q) p q
        (hx m c t p 0 (by rw [h0])) (hw m c t q 0 (by rw [h0]))
    · have h0' : (n + 1) % 8 ≠ 0 := h0
      have er : rowOf (n + 1) p = rowOf n p := Fin.ext (by show 1024 * ((n + 1) / 32 % 8) + p.val = 1024 * (n / 32 % 8) + p.val; omega)
      have ec : colOf (n + 1) q = colOf n q := Fin.ext (by show 1024 * ((n + 1) / 8 % 4) + q.val = 1024 * (n / 8 % 4) + q.val; omega)
      have es : (n + 1) % 8 = n % 8 + 1 := by omega
      have hs : n % 8 + 1 < 8 := by omega
      have ih' : (outsAt0 m c (t.val - 1) (Nat.lt_of_le_of_lt (Nat.sub_le _ _) t.isLt)).2 (ix2 p q)
          = partialDot (xarr m c) (warr m c) (rowOf (n + 1) p) (colOf (n + 1) q) (n % 8 + 1) := by
        rw [er, ec]; exact ih
      by_cases h1 : t.val % 8 = 7
      · rw [outsAt0_C m c t h0 h1]
        dsimp only
        refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
        rw [es]
        exact Step.step_value (xblk m c t) (wblk m c t) _ (xarr m c) (warr m c) (rowOf (n + 1) p) (colOf (n + 1) q) (n % 8 + 1) hs p q
          (hx m c t p (n % 8 + 1) es.symm) (hw m c t q (n % 8 + 1) es.symm) ih'
      · rw [outsAt0_B m c t h0 h1]
        dsimp only
        refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
        rw [es]
        exact Step.step_value (xblk m c t) (wblk m c t) _ (xarr m c) (warr m c) (rowOf (n + 1) p) (colOf (n + 1) q) (n % 8 + 1) hs p q
          (hx m c t p (n % 8 + 1) es.symm) (hw m c t q (n % 8 + 1) es.symm) ih'

/-- THE OUTPUT BLOCK at the last point of a run: the whole contraction of the two rows, plus the bias entry. -/
theorem out_eq (c : Dev nD) (t : Fin cfg0.N) (h1 : t.val % 8 = 7) (p q : Fin 1024) :
    (outsAt0 m c t.val t.isLt).1 (ix2 p q)
      = (∑ k : Fin 4096, xarr m c (ix2 (rowOf t.val p) k) * warr m c (ix2 (colOf t.val q) k))
        + barr m c (ix2 (0 : Fin 1) (colOf t.val q)) := by
  have h0 : ¬t.val % 8 = 0 := by omega
  have hN : t.val < 256 := lt_of_lt_of_eq t.isLt N256
  have hpos : t.val = (t.val - 1) + 1 := by omega
  have ih := scratch_eq m c (t.val - 1) (Nat.lt_of_le_of_lt (Nat.sub_le _ _) t.isLt) p q
  have er : rowOf (t.val - 1) p = rowOf t.val p := Fin.ext (by show 1024 * ((t.val - 1) / 32 % 8) + p.val = 1024 * (t.val / 32 % 8) + p.val; omega)
  have ec : colOf (t.val - 1) q = colOf t.val q := Fin.ext (by show 1024 * ((t.val - 1) / 8 % 4) + q.val = 1024 * (t.val / 8 % 4) + q.val; omega)
  have es : (t.val - 1) % 8 + 1 = 7 := by omega
  rw [er, ec, es] at ih
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  rw [Payload.pay3_apply]
  rw [Step.step_value (xblk m c t) (wblk m c t) _ (xarr m c) (warr m c) (rowOf t.val p) (colOf t.val q) 7 (by decide) p q
    (hx m c t p 7 h1.symm) (hw m c t q 7 h1.symm) ih]
  rw [partialDot_eight]
  exact congrArg (_ + ·) (bblk_apply m c t q (colOf t.val q) rfl)

end Cert.KernelIdeal.Accum

end
-- ==== Proof.HostSide.lean ====
/-
  The host operations around the kernel region. Before it: the left operand is the input x [4, 2048, 4096] re-laid
  as [8192, 4096] (row 2048·b + s is x[b, s, ·]), the bias operand is the bias vector as one row, and the right
  operand is the weight table gathered from the codebook at the (wrapped) indices. After it: the result
  [8192, 4096] is re-laid as [4, 2048, 4096].
-/
import proofs.«169294_j30313879175885_1_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The weight table as @main builds it from the codebook and the index array: a negative index is first wrapped
    by adding 256, then the codebook is gathered at the indices. -/
def weights (cent : (⟨S256, .f32⟩ : BufTy).Contents (Elt F)) (idx : (⟨S4096x4096, .i32⟩ : BufTy).Contents (Elt F)) :
    (⟨S4096x4096, .f32⟩ : BufTy).Contents (Elt F) :=
  Host.gather gather_S256_S4096x4096x1_S4096x4096_n_0_n_n_0_2_1 cent
    (broadcastInDim S4096x4096x1 ![0, 1] bcast_S4096x4096_S4096x4096x1_0_1
      (select (cmpi .slt idx (broadcastInDim S4096x4096 ![] bcast_S_S4096x4096 (constantI S_ 32 0#32)))
        (addi idx (broadcastInDim S4096x4096 ![] bcast_S_S4096x4096 (constantI S_ 32 256#32))) idx))

/-- The region's left operand is x re-laid as [8192, 4096]. -/
theorem left_eq (c : Dev nD) : (V m c main_v7 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v7) = _
  after_results
  rfl

/-- The region's bias operand is the bias vector as one row. -/
theorem bias_eq (c : Dev nD) : (V m c main_v8 : S1x4096.Idx → Elt F .f32)
    = shapeCast S1x4096 (m ((c : Thread nD τ).loc main_arg2)) shapeCasts_S4096_S1x4096 := by
  show StableHlo.after hostOps0 (fun b => m (c, b)) (Proc.devRef .tc main_v8) = _
  after_results
  rfl

/-- The region's right operand is the weight table. -/
theorem right_eq (c : Dev nD) : (V m c main_v6 : S4096x4096.Idx → Elt F .f32)
    = weights (m ((c : Thread nD τ).loc main_arg1)) (m ((c : Thread nD τ).loc main_arg3)) := by
  show StableHlo.after hostOps0 (fun b => m (c, b)) (Proc.devRef .tc main_v6) = _
  after_results
  rfl

/-- After the region the result array is re-laid as [4, 2048, 4096]. -/
theorem tail_eq (c : Dev nD) : Pipeline.afterTail₀ cfgs (dats m) 0 (V0 m) [hostOps1] c main_v10
    = shapeCast S4x2048x4096 ((dats m 0 c).arrAt 3 cfg0.N) shapeCasts_S8192x4096_S4x2048x4096 := by
  unfold Pipeline.afterTail₀
  show StableHlo.after hostOps1 _ (Proc.devRef .tc main_v10) = _
  after_results
  funext i
  show shapeCast S4x2048x4096 (Pipeline.withArrays spec0 c (V0 m c) (fun w => (dats m 0 c).arrAt w cfg0.N)
    (Proc.devRef .tc (Pipeline.arrRef spec0 3))) shapeCasts_S8192x4096_S4x2048x4096 i = _
  rw [Pipeline.withArrays_arr spec0 launch0.win.arr_inj c _ _ 3]

/-- The left operand at (2048·b + s, k) is x[b, s, k]. -/
theorem left_apply (x : S4x2048x4096.Idx → Elt F .f32) (b : Fin 4) (s : Fin 2048) (k : Fin 4096) (r : Fin 8192)
    (hr : r.val = 2048 * b.val + s.val) :
    shapeCast S8192x4096 x shapeCasts_S4x2048x4096_S8192x4096 (ix2 r k) = x (ix3 b s k) :=
  shapeCast_apply x _ (ix2 r k) (ix3 b s k) (by
    rw [Shape.rowMajor_val_three, Shape.rowMajor_val_two]
    show (b.val * 2048 + s.val) * 4096 + k.val = r.val * 4096 + k.val
    rw [hr]; ring)

/-- The bias row at (0, o) is bias[o]. -/
theorem bias_apply (bias : S4096.Idx → Elt F .f32) (o : Fin 4096) :
    shapeCast S1x4096 bias shapeCasts_S4096_S1x4096 (ix2 (0 : Fin 1) o) = bias (ix1 o) :=
  shapeCast_apply bias _ (ix2 (0 : Fin 1) o) (ix1 o) (by
    rw [Shape.rowMajor_val_one, Shape.rowMajor_val_two]
    show o.val = 0 * 4096 + o.val
    omega)

/-- The re-laid result at (b, s, o) is the result array at (2048·b + s, o). -/
theorem tail_apply (y : S8192x4096.Idx → Elt F .f32) (b : Fin 4) (s : Fin 2048) (o : Fin 4096) (r : Fin 8192)
    (hr : r.val = 2048 * b.val + s.val) :
    shapeCast S4x2048x4096 y shapeCasts_S8192x4096_S4x2048x4096 (ix3 b s o) = y (ix2 r o) :=
  shapeCast_apply y _ (ix3 b s o) (ix2 r o) (by
    rw [Shape.rowMajor_val_three, Shape.rowMajor_val_two]
    show r.val * 4096 + o.val = (b.val * 2048 + s.val) * 4096 + o.val
    rw [hr]; ring)

end Cert.KernelIdeal.HostSide

end
-- ==== Proof.Spec.lean ====
/-
  The function both programs compute, entry by entry, on the extended reals: a linear layer
  out[b, s, o] = (sum over the 4096 inputs i of x[b, s, i] · w[o, i]) + bias[o],
  where w is the [4096, 4096] weight table (whatever it holds: both programs build it the same way).
-/
import Idealize.ShloMosaic.Lib.ValueIdx

noncomputable section

namespace Cert.Spec

open Idealize.ShloMosaic Idealize.ShloMosaic.ValueIdx

/-- The linear layer at an index (b, s, o). -/
def linear (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * w (ix2 (i 2) k)) + bias (ix1 (i 2))

end Cert.Spec

end
-- ==== Proof.Final.lean ====
/-
  The result array after the region. Each (row block, column block) of the [8192, 4096] result is written back
  exactly once, by the last point of its run of eight, and what that point writes is the block of one whole-array
  function: entry (r, o) is the contraction of row r of the left array against row o of the right array, plus the
  bias row's entry o. The 32 write-backs tile the array, so the array ends holding that function; the host
  operation after the region re-lays it as [4, 2048, 4096].
-/
import proofs.«169294_j30313879175885_1_alg».proof.Proof.Accum
import proofs.«169294_j30313879175885_1_alg».proof.Proof.HostSide
import proofs.«169294_j30313879175885_1_alg».proof.Proof.Spec

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Cert.KernelIdeal.Blocks Cert.KernelIdeal.Accum
open Idealize.ShloMosaic.Pipeline (Dat)

variable (m : (ℓ : Loc nD τ sig) → Buf (Elt Ideal) ℓ) (ρ : Dev nD → PrngReg)

/-- The result array as one function of the three arrays the region reads. -/
def G (X : S8192x4096.Idx → EReal) (W : S4096x4096.Idx → EReal) (B : S1x4096.Idx → EReal) : S8192x4096.Idx → EReal :=
  fun j => (∑ k : Fin 4096, X (ix2 (j 0) k) * W (ix2 (j 1) k)) + B (ix2 (0 : Fin 1) (j 1))

/-- The same, as contents of the result array on core `c`. -/
abbrev Garr (c : Dev nD) : Buf (Elt Ideal) ((c : Thread nD τ).loc main_v9) := G (xarr m c) (warr m c) (barr m c)

/-- What the last point of a run holds in the output block, entry by entry, is the block of `G`. -/
theorem block_eq (c : Dev nD) (t : Fin cfg0.N) (h1 : t.val % 8 = 7) (y : S1024x1024.Idx) :
    (outsAt0 m c t.val t.isLt).1 y = Garr m c (((cfg0.win 3).blk t).view.emb y) := by
  obtain ⟨p, q, rfl⟩ : ∃ (p q : Fin 1024), y = ix2 p q := ⟨y 0, y 1, eq_ix2 y⟩
  obtain ⟨-, -, -, -, -, -, e0, e1⟩ := index_facts t
  have hN : t.val < 256 := lt_of_lt_of_eq t.isLt N256
  have e : ((cfg0.win 3).blk t).view.emb (ix2 p q) = ix2 (rowOf t.val p) (colOf t.val q) := funext fun a => Fin.ext (by
    match a with
    | ⟨0, _⟩ => show win0_3.index t (0 : Fin 2) * 1024 + 1 * p.val = 1024 * (t.val / 32 % 8) + p.val; omega
    | ⟨1, _⟩ => show win0_3.index t (1 : Fin 2) * 1024 + 1 * q.val = 1024 * (t.val / 8 % 4) + q.val; omega)
  rw [out_eq m c t h1 p q, e]
  rfl

/-- WHAT A WRITE-BACK WRITES is the block of `G`. -/
theorem flushed_eq (c : Dev nD) (t : Fin cfg0.N) (hf : (cfg0.win 3).flush t = true) :
    (dats m 0 c).flushed 3 t = ((cfg0.win 3).blk t).view.read (Elt Ideal) (Garr m c) := by
  have h1 : t.val % 8 = 7 := (flush0_3 t).mp hf
  show (cfg0.win 3).cut (grid0.coords t) ((dats m 0 c).after 3 t) = _
  rw [after0_3]
  funext y
  rw [View.read_apply]
  exact block_eq m c t h1 y

/-- An index of the result array is in point `t`'s block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the result array is written back by the last point of its block's run. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨32 * ((i 0).val / 1024) + 8 * ((i 1).val / 1024) + 7, by rw [N256]; omega⟩
  have ht : t.val = 32 * ((i 0).val / 1024) + 8 * ((i 1).val / 1024) + 7 := rfl
  obtain ⟨-, -, -, -, -, -, e0, e1⟩ := index_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the region is `G` of the arrays the region reads. -/
theorem final (c : Dev nD) : (dats m 0 c).arrAt 3 cfg0.N = Garr m c :=
  (dats m 0 c).arrAt_eq_of_cover 3 (Garr m c) (flushed_eq m c) cover

/-- The program's result [4, 2048, 4096] on core `c`: the linear layer of x, the weight table and the bias. -/
abbrev result (c : Dev nD) : Buf (Elt Ideal) ((c : Thread nD τ).loc main_v10) :=
  Cert.Spec.linear (m ((c : Thread nD τ).loc main_arg0))
    (HostSide.weights (m ((c : Thread nD τ).loc main_arg1)) (m ((c : Thread nD τ).loc main_arg3)))
    (m ((c : Thread nD τ).loc main_arg2))

/-- The re-laid result array is the linear layer, entry by entry. -/
theorem result_eq (c : Dev nD) :
    Pipeline.afterTail₀ cfgs (dats m) 0 (V0 m) [hostOps1] c main_v10 = result m c := by
  rw [HostSide.tail_eq, final]
  funext i
  obtain ⟨b, s, o, rfl⟩ : ∃ (b : Fin 4) (s : Fin 2048) (o : Fin 4096), i = ix3 b s o := ⟨i 0, i 1, i 2, eq_ix3 i⟩
  have hr : 2048 * b.val + s.val < 8192 := by have := b.isLt; have := s.isLt; omega
  rw [HostSide.tail_apply _ b s o ⟨2048 * b.val + s.val, hr⟩ rfl]
  show (∑ k : Fin 4096, xarr m c (ix2 ⟨2048 * b.val + s.val, hr⟩ k) * warr m c (ix2 o k)) + barr m c (ix2 (0 : Fin 1) o) = _
  have ex : ∀ k : Fin 4096, xarr m c (ix2 ⟨2048 * b.val + s.val, hr⟩ k) = m ((c : Thread nD τ).loc main_arg0) (ix3 b s k) := fun k => by
    show (V m c main_v7 : S8192x4096.Idx → Elt Ideal .f32) _ = _
    rw [HostSide.left_eq]
    exact HostSide.left_apply _ b s k _ rfl
  have eb : barr m c (ix2 (0 : Fin 1) o) = m ((c : Thread nD τ).loc main_arg2) (ix1 o) := by
    show (V m c main_v8 : S1x4096.Idx → Elt Ideal .f32) _ = _
    rw [HostSide.bias_eq]
    exact HostSide.bias_apply _ o
  have ew : warr m c = HostSide.weights (m ((c : Thread nD τ).loc main_arg1)) (m ((c : Thread nD τ).loc main_arg3)) :=
    HostSide.right_eq m c
  rw [eb, ew]
  simp only [ex]
  rfl

/-- THE RUN, READ: every weakly fair execution ends with the result at the linear layer and the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefSide.lean ====
/-
  The reference program at the ideal instance, read at an index: its contraction of x's last axis against the weight
  table's last axis, plus the bias broadcast along the first two axes, is the linear layer of the specification —
  with the weight table kept as the reference's own gather of the codebook.
-/
import proofs.«169294_j30313879175885_1_alg».proof.Proof.Gen.ReferenceIdeal.Read
import proofs.«169294_j30313879175885_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result is the linear layer of x, the gathered weight table and the bias. -/
theorem result_eq (x0 : (⟨S4x2048x4096, .f32⟩ : BufTy).Contents (Elt Ideal)) (x1 : (⟨S256, .f32⟩ : BufTy).Contents (Elt Ideal))
    (x2 : (⟨S4096, .f32⟩ : BufTy).Contents (Elt Ideal)) (x3 : (⟨S4096x4096, .i32⟩ : BufTy).Contents (Elt Ideal)) :
    val_main_v10 (F := Ideal) x0 x1 x2 x3 = Cert.Spec.linear x0 (val_main_v6 (F := Ideal) x1 x3) x2 := by
  funext i
  have el : ∀ k : Fin 4096, lidx_main_v7 i k = ix3 (i 0) (i 1) k := fun k => funext fun a => Fin.ext (by
    match a with
    | ⟨0, _⟩ => rfl
    | ⟨1, _⟩ => rfl
    | ⟨2, _⟩ => rfl)
  have er : ∀ k : Fin 4096, ridx_main_v7 i k = ix2 (i 2) k := fun k => funext fun a => Fin.ext (by
    match a with
    | ⟨0, _⟩ => rfl
    | ⟨1, _⟩ => rfl)
  have eb : idx_main_v8 (idx_main_v9 i) = ix1 (i 2) := funext fun a => Fin.ext (by
    match a with
    | ⟨0, _⟩ => rfl)
  rw [val_main_v10_apply, val_main_v7_apply, val_main_v9_apply, val_main_v8_apply]
  simp only [el, er, eb]
  rfl

end Cert.ReferenceIdeal.RefValue

end
-- ==== Proof.lean ====
/-
  A linear layer with a codebook-shared weight matrix: out[b, s, o] = Σ_i x[b, s, i] · w[o, i] + bias[o], where
  w[o, i] = centroids[indices[o, i]] is gathered on the host (the same operations in both programs, so the table
  is never opened). The kernel re-lays x as [8192, 4096] and runs an 8 × 4 × 8 grid: for each 1024 × 1024 output
  block it accumulates, over eight steps, the products of a 1024 × 512 block of x with a 1024 × 512 block of w
  (contracting both along their 512 columns) into a carried accumulator that the first step resets to zero, and on
  the eighth step stores the accumulator plus the bias row into the output block, which is then written back; the
  host re-lays the [8192, 4096] result as [4, 2048, 4096]. The reference contracts x's last axis against w's last
  axis in one product and adds the bias.

  On the extended reals the two agree entry by entry: the narrowing of the operands to bf16 is the identity there,
  zero is neutral for +, and the eight partial sums of 512 products, added in order, are the one sum of 4096
  products because + is associative and commutative (no finiteness of the inputs is needed). The accumulator after
  each grid point is identified by induction on the point; the 32 write-backs tile the result array.

  The three frames are the generated ones (the reference's is its generated run with the result dropped), and the
  idealization rewrote nothing.
-/
import proofs.«169294_j30313879175885_1_alg».proof.Defs
import proofs.«169294_j30313879175885_1_alg».proof.Proof.Gen.Kernel
import proofs.«169294_j30313879175885_1_alg».proof.Proof.Gen.Kernel.Skeleton
import proofs.«169294_j30313879175885_1_alg».proof.Proof.Gen.Kernel.Launch
import proofs.«169294_j30313879175885_1_alg».proof.Proof.Gen.Kernel.Points
import proofs.«169294_j30313879175885_1_alg».proof.Proof.Gen.Kernel.Frame
import proofs.«169294_j30313879175885_1_alg».proof.Proof.Gen.KernelIdeal
import proofs.«169294_j30313879175885_1_alg».proof.Proof.Gen.KernelIdeal.Skeleton
import proofs.«169294_j30313879175885_1_alg».proof.Proof.Gen.KernelIdeal.Launch
import proofs.«169294_j30313879175885_1_alg».proof.Proof.Gen.KernelIdeal.Points
import proofs.«169294_j30313879175885_1_alg».proof.Proof.Gen.KernelIdeal.Frame
import proofs.«169294_j30313879175885_1_alg».proof.Proof.Gen.ReferenceIdeal
import proofs.«169294_j30313879175885_1_alg».proof.Proof.Gen.ReferenceIdeal.Read
import proofs.«169294_j30313879175885_1_alg».proof.Proof.Gen.Pre_finite_inputs
import proofs.«169294_j30313879175885_1_alg».proof.Proof.Final
import proofs.«169294_j30313879175885_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the linear layer of x, the gathered weight
    table and the bias; the two programs spell the weight table with the same host operations. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
